-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x128 : Shape := ⟨2, ![128, 128]⟩
abbrev S128x64 : Shape := ⟨2, ![128, 64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_

variable [Facts]

def fn_part1 {F : FTy → Type} [FloatOps F] (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  main_v18

def fn {F : FTy → Type} [FloatOps F] (main_arg0 : FVec F S50000x128 .f32) (main_arg1 : IVec S800000 32) (main_arg2 : IVec S800000 32) (main_arg3 : FVec F S800000 .f32) (main_arg4 : FVec F S128x128 .f32) (main_arg5 : FVec F S128x64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg3
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x64 .f32 := Host.absf main_arg5
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_v13 main_v16
-- ==== Kernel.lean ====
abbrev S50000x128 : Shape := ⟨2, ![50000, 128]⟩
abbrev S800000 : Shape := ⟨1, ![800000]⟩
abbrev S128x128 : Shape := ⟨2, ![128, 128]⟩
abbrev S128x64 : Shape := ⟨2, ![128, 64]⟩
abbrev S800000x1 : Shape := ⟨2, ![800000, 1]⟩
abbrev S_ : Shape := ⟨0, ![]⟩
abbrev S800000x128 : Shape := ⟨2, ![800000, 128]⟩
abbrev S5000x128 : Shape := ⟨2, ![5000, 128]⟩
abbrev S50000x64 : Shape := ⟨2, ![50000, 64]⟩
abbrev S5000x64 : Shape := ⟨2, ![5000, 64]⟩
abbrev S5000 : Shape := ⟨1, ![5000]⟩
abbrev S5000x1 : Shape := ⟨2, ![5000, 1]⟩

abbrev nBuf : Space → Nat
  | .hbm => 40
  | .vmem => 10
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S128x128, .f32⟩
  | .hbm, ⟨5, _⟩ => ⟨S128x64, .f32⟩
  | .hbm, ⟨6, _⟩ => ⟨S800000x1, .f32⟩
  | .hbm, ⟨7, _⟩ => ⟨S_, .i32⟩
  | .hbm, ⟨8, _⟩ => ⟨S800000, .i32⟩
  | .hbm, ⟨9, _⟩ => ⟨S800000, .i1⟩
  | .hbm, ⟨10, _⟩ => ⟨S_, .i32⟩
  | .hbm, ⟨11, _⟩ => ⟨S800000, .i32⟩
  | .hbm, ⟨12, _⟩ => ⟨S800000, .i32⟩
  | .hbm, ⟨13, _⟩ => ⟨S800000, .i32⟩
  | .hbm, ⟨14, _⟩ => ⟨S800000x1, .i32⟩
  | .hbm, ⟨15, _⟩ => ⟨S800000x128, .f32⟩
  | .hbm, ⟨16, _⟩ => ⟨S800000x128, .f32⟩
  | .hbm, ⟨17, _⟩ => ⟨S800000x128, .f32⟩
  | .hbm, ⟨18, _⟩ => ⟨S_, .f32⟩
  | .hbm, ⟨19, _⟩ => ⟨S50000x128, .f32⟩
  | .hbm, ⟨20, _⟩ => ⟨S800000x1, .i32⟩
  | .hbm, ⟨21, _⟩ => ⟨S50000x128, .f32⟩
  | .hbm, ⟨22, _⟩ => ⟨S50000x128, .f32⟩
  | .hbm, ⟨23, _⟩ => ⟨S800000x1, .f32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000x128, .f32⟩
  | .hbm, ⟨33, _⟩ => ⟨S800000x128, .f32⟩
  | .hbm, ⟨34, _⟩ => ⟨S800000x128, .f32⟩
  | .hbm, ⟨35, _⟩ => ⟨S_, .f32⟩
  | .hbm, ⟨36, _⟩ => ⟨S50000x128, .f32⟩
  | .hbm, ⟨37, _⟩ => ⟨S800000x1, .i32⟩
  | .hbm, ⟨38, _⟩ => ⟨S50000x128, .f32⟩
  | .hbm, ⟨39, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x64, .f32⟩
  | .local _ .vmem, ⟨8, _⟩ => ⟨S5000x64, .f32⟩
  | .local _ .vmem, ⟨9, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c_1 : Ref sig .tc := ⟨.hbm, 24, rfl⟩
abbrev main_v15 : Ref sig .tc := ⟨.hbm, 25, rfl⟩
abbrev main_v16 : Ref sig .tc := ⟨.hbm, 26, rfl⟩
abbrev main_c_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128x64_S128x64_0_0 : ∀ a, (![0, 0] : Fin 2 → Nat) a + S128x64.size a ≤ S128x64.size a
  h_S128x64 : 0 < S128x64.numel
  reduces_S5000x64_S5000 : S5000x64.Reduces [1] S5000
  shapeCasts_S5000_S5000x1 : S5000.ShapeCasts S5000x1
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S50000x64.size a
  hwx1_2 : ∀ i : grid1.Coords, EltTy.bits .f32 = 32 ∨ (Rect.block (s := S50000x64) S5000x64.size (cc1_transform_2 i) (hinb1_2 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v12) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v26) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v27) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x128 : Shape := ⟨2, ![50000, 128]⟩
abbrev S800000 : Shape := ⟨1, ![800000]⟩
abbrev S128x128 : Shape := ⟨2, ![128, 128]⟩
abbrev S128x64 : Shape := ⟨2, ![128, 64]⟩
abbrev S800000x1 : Shape := ⟨2, ![800000, 1]⟩
abbrev S_ : Shape := ⟨0, ![]⟩
abbrev S800000x128 : Shape := ⟨2, ![800000, 128]⟩
abbrev S50000x64 : Shape := ⟨2, ![50000, 64]⟩
abbrev S50000 : Shape := ⟨1, ![50000]⟩
abbrev S50000x1 : Shape := ⟨2, ![50000, 1]⟩

abbrev nBuf : Space → Nat
  | .hbm => 57
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S128x128, .f32⟩
  | .hbm, ⟨5, _⟩ => ⟨S128x64, .f32⟩
  | .hbm, ⟨6, _⟩ => ⟨S800000x1, .f32⟩
  | .hbm, ⟨7, _⟩ => ⟨S_, .i32⟩
  | .hbm, ⟨8, _⟩ => ⟨S800000, .i32⟩
  | .hbm, ⟨9, _⟩ => ⟨S800000, .i1⟩
  | .hbm, ⟨10, _⟩ => ⟨S_, .i32⟩
  | .hbm, ⟨11, _⟩ => ⟨S800000, .i32⟩
  | .hbm, ⟨12, _⟩ => ⟨S800000, .i32⟩
  | .hbm, ⟨13, _⟩ => ⟨S800000, .i32⟩
  | .hbm, ⟨14, _⟩ => ⟨S800000x1, .i32⟩
  | .hbm, ⟨15, _⟩ => ⟨S800000x128, .f32⟩
  | .hbm, ⟨16, _⟩ => ⟨S800000x128, .f32⟩
  | .hbm, ⟨17, _⟩ => ⟨S800000x128, .f32⟩
  | .hbm, ⟨18, _⟩ => ⟨S_, .f32⟩
  | .hbm, ⟨19, _⟩ => ⟨S50000x128, .f32⟩
  | .hbm, ⟨20, _⟩ => ⟨S800000x1, .i32⟩
  | .hbm, ⟨21, _⟩ => ⟨S50000x128, .f32⟩
  | .hbm, ⟨22, _⟩ => ⟨S50000x128, .f32⟩
  | .hbm, ⟨23, _⟩ => ⟨S_, .f32⟩
  | .hbm, ⟨24, _⟩ => ⟨S50000x128, .f32⟩
  | .hbm, ⟨25, _⟩ => ⟨S50000x128, .f32⟩
  | .hbm, ⟨26, _⟩ => ⟨S800000x1, .f32⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S800000x128, .f32⟩
  | .hbm, ⟨36, _⟩ => ⟨S800000x128, .f32⟩
  | .hbm, ⟨37, _⟩ => ⟨S800000x128, .f32⟩
  | .hbm, ⟨38, _⟩ => ⟨S_, .f32⟩
  | .hbm, ⟨39, _⟩ => ⟨S50000x128, .f32⟩
  | .hbm, ⟨40, _⟩ => ⟨S800000x1, .i32⟩
  | .hbm, ⟨41, _⟩ => ⟨S50000x128, .f32⟩
  | .hbm, ⟨42, _⟩ => ⟨S50000x64, .f32⟩
  | .hbm, ⟨43, _⟩ => ⟨S_, .f32⟩
  | .hbm, ⟨44, _⟩ => ⟨S50000, .f32⟩
  | .hbm, ⟨45, _⟩ => ⟨S_, .f32⟩
  | .hbm, ⟨46, _⟩ => ⟨S50000, .f32⟩
  | .hbm, ⟨47, _⟩ => ⟨S50000, .f32⟩
  | .hbm, ⟨48, _⟩ => ⟨S50000x1, .f32⟩
  | .hbm, ⟨49, _⟩ => ⟨S50000x64, .f32⟩
  | .hbm, ⟨50, _⟩ => ⟨S50000x64, .f32⟩
  | .hbm, ⟨51, _⟩ => ⟨S50000x64, .f32⟩
  | .hbm, ⟨52, _⟩ => ⟨S_, .f32⟩
  | .hbm, ⟨53, _⟩ => ⟨S50000, .f32⟩
  | .hbm, ⟨54, _⟩ => ⟨S50000x1, .f32⟩
  | .hbm, ⟨55, _⟩ => ⟨S50000x64, .f32⟩
  | .hbm, ⟨56, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_cst : Ref sig .tc := ⟨.hbm, 23, rfl⟩
abbrev main_call0_v0 : Ref sig .tc := ⟨.hbm, 24, rfl⟩
abbrev main_v14 : Ref sig .tc := ⟨.hbm, 25, rfl⟩
abbrev main_v15 : Ref sig .tc := ⟨.hbm, 26, rfl⟩
abbrev main_c_1 : Ref sig .tc := ⟨.hbm, 27, rfl⟩
abbrev main_v16 : Ref sig .tc := ⟨.hbm, 28, rfl⟩
abbrev main_v17 : Ref sig .tc := ⟨.hbm, 29, rfl⟩
abbrev main_c_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_4 : Ref sig .tc := ⟨.hbm, 43, rfl⟩
abbrev main_v29 : Ref sig .tc := ⟨.hbm, 44, rfl⟩
abbrev main_cst_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_6 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩

abbrev nD : Nat := 1
abbrev τ : Topo := Topo.v7x

variable {F : FTy → Type} [FloatOps F]

class Facts₀ : Prop where
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  reducesTo_S50000x64_S50000_d1 : S50000x64.ReducesTo [1] S50000
  h_S_ : 0 < S_.numel
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.KernelStretch.lean ====
/-
  The two stretches of host operations of the kernel's program, each read as a function.

  Both stretches are the same sparse product: every edge `e` takes row `cols e` of a dense matrix `X` (a negative
  column index counted from the end), scales it by `vals e`, and the scaled rows are summed into the rows
  `rows e` of a zero matrix. `spmm` names that chain of operations once, as one function of the three edge arrays
  and of `X`; it is never opened. The first stretch applies it to the embeddings and leaves the result where the first
  kernel call reads its left operand; the second applies it to the first call's result and leaves the result where
  the second call reads its left operand. Neither stretch writes an argument of the program nor the first call's
  result.
-/
import proofs.«149284_j4020089389121_1_alg».proof.Proof.Gen.KernelIdeal.Launch
import Idealize.ShloMosaic.Lib.StableHlo.Run

noncomputable section

namespace Cert.KernelIdeal.Stretch

open Cert.KernelIdeal Cert.KernelIdeal.Gen Idealize.ShloMosaic Idealize.ShloMosaic.TcCoe Idealize.SL.Sem
open Idealize.ShloMosaic.StableHlo

variable {F : FTy → Type} [FloatOps F]

/-- The sparse product `A · X`, the sparse matrix `A` given by its edges (`rows`, `cols`, `vals`), as the host spells
    it: the column indices normalised, the rows of `X` gathered at them, scaled by the values, and scatter-added
    into a zero matrix at the row indices. -/
def spmm (rows cols : (⟨S800000, .i32⟩ : BufTy).Contents (Elt F)) (vals : (⟨S800000, .f32⟩ : BufTy).Contents (Elt F))
    (X : (⟨S50000x128, .f32⟩ : BufTy).Contents (Elt F)) : (⟨S50000x128, .f32⟩ : BufTy).Contents (Elt F) :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 rows)
    (mulf (broadcastInDim S800000x128 ![0, 1] bcast_S800000x1_S800000x128_0_1
        (broadcastInDim S800000x1 ![0] bcast_S800000_S800000x1_0 vals))
      (Host.gather gather_S50000x128_S800000x1_S800000x128_1_0_n_n_0_1_1128 X
        (broadcastInDim S800000x1 ![0] bcast_S800000_S800000x1_0
          (select (cmpi .slt cols (broadcastInDim S800000 ![] bcast_S_S800000 (constantI S_ 32 0#32)))
            (addi cols (broadcastInDim S800000 ![] bcast_S_S800000 (constantI S_ 32 50000#32))) cols))))

variable (W : Valuation τ sig (Elt F))

/-- The first stretch leaves the sparse product of the embeddings in the first call's left operand. -/
theorem first_product :
    StableHlo.after (hostOps0 (F := F)) W (Proc.devRef .tc main_v12)
      = spmm (F := F) (W (Proc.devRef .tc main_arg1)) (W (Proc.devRef .tc main_arg2)) (W (Proc.devRef .tc main_arg3))
          (W (Proc.devRef .tc main_arg0)) := by
  after_results
  rfl

/-- The second stretch leaves the sparse product of the first call's result in the second call's left operand. -/
theorem second_product :
    StableHlo.after (hostOps1 (F := F)) W (Proc.devRef .tc main_v26)
      = spmm (F := F) (W (Proc.devRef .tc main_arg1)) (W (Proc.devRef .tc main_arg2)) (W (Proc.devRef .tc main_arg3))
          (W (Proc.devRef .tc main_v13)) := by
  after_results
  rfl

/-- What the first stretch does not write: the program's arguments. -/
theorem first_keeps_arg1 : StableHlo.after (hostOps0 (F := F)) W (Proc.devRef .tc main_arg1) = W (Proc.devRef .tc main_arg1) := by
  after_results
theorem first_keeps_arg2 : StableHlo.after (hostOps0 (F := F)) W (Proc.devRef .tc main_arg2) = W (Proc.devRef .tc main_arg2) := by
  after_results
theorem first_keeps_arg3 : StableHlo.after (hostOps0 (F := F)) W (Proc.devRef .tc main_arg3) = W (Proc.devRef .tc main_arg3) := by
  after_results
theorem first_keeps_arg4 : StableHlo.after (hostOps0 (F := F)) W (Proc.devRef .tc main_arg4) = W (Proc.devRef .tc main_arg4) := by
  after_results
theorem first_keeps_arg5 : StableHlo.after (hostOps0 (F := F)) W (Proc.devRef .tc main_arg5) = W (Proc.devRef .tc main_arg5) := by
  after_results

/-- What the second stretch does not write: the second weight matrix. -/
theorem second_keeps_arg5 : StableHlo.after (hostOps1 (F := F)) W (Proc.devRef .tc main_arg5) = W (Proc.devRef .tc main_arg5) := by
  after_results

end Cert.KernelIdeal.Stretch

end
-- ==== Proof.LibColumnLayout.lean ====
/-
  A column of row sums, laid along the rows and along the columns of a matrix, read at an index.

  A kernel that sums the rows of an `[a, b]` matrix with `keepdims` holds the sums as a column `[a, 1]`; it then
  either broadcasts that column over `b` columns, or transposes it into a row `[1, a]` and broadcasts the row over
  many rows. The lemmas here read each of those steps at an index given by its coordinates:

  * `multiReduction_add_rows_apply` — the sum over the second axis of `[a, b]`, at row `p`, is `∑ₖ src (p, k)`;
  * `shapeCast_a_a1_apply` — a vector `[a]` cast to the column `[a, 1]` reads, at `(i, u)`, the vector at `i`;
  * `broadcastTo_a1_ab_apply` — a column `[a, 1]` broadcast to `[a, b]` reads, at `(i, j)`, the column at `(i, 0)`;
  * `column_over_columns_apply` / `column_as_row_over_rows_apply` — the two compositions a kernel prints: the
    vector `w` as a column over all columns is `w i` at `(i, j)`, and as a transposed row over all rows is `w j`.

  All are generic in the extents and in the element type; none uses anything of the arithmetic.
-/
import Idealize.ShloMosaic.Lib.Pipeline.Value
import Idealize.ShloMosaic.Lib.ValueIdx
import Idealize.ShloMosaic.Lib.ValueLayout
import Idealize.ShloMosaic.PureOps.Ideal.Laws

namespace Cert.ColumnLayout

open Idealize.ShloMosaic Idealize.ShloMosaic.ValueIdx

variable {α : Type}

/-- The sum over the second axis of an `[a, b]` matrix, read at row `p` at the ideal values: the sum over the `b`
    entries of that row. -/
theorem multiReduction_add_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun ax => Fin.ext (by
      match ax with
      | ⟨0, _⟩ => rfl
      | ⟨1, _⟩ => rfl)))

/-- A vector `[a]` cast to the column `[a, 1]` reads, at `(i, u)`, the vector at `i`, whatever the unit
    coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry of row `i`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- A vector `w` set as a column and broadcast over `b` columns: at `(i, j)` it is `w i`. -/
theorem column_over_columns_apply {a b : ℕ} (w : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (i : Fin a) (j : Fin b) :
    broadcastTo ⟨2, ![a, b]⟩ (shapeCast ⟨2, ![a, 1]⟩ w hc) hb (ix2 i j) = w (ix1 i) :=
  (broadcastTo_a1_ab_apply _ hb i j).trans (shapeCast_a_a1_apply w hc i 0)

/-- A vector `w` set as a column, transposed into a row, and broadcast over `a` rows: at `(i, j)` it is `w j`. -/
theorem column_as_row_over_rows_apply {a b : ℕ} (w : (⟨1, ![b]⟩ : Shape).Idx → α)
    (hc : (⟨1, ![b]⟩ : Shape).ShapeCasts ⟨2, ![b, 1]⟩) (ht : (⟨2, ![b, 1]⟩ : Shape).Transposes [1, 0] ⟨2, ![1, b]⟩)
    (hb : (⟨2, ![1, b]⟩ : Shape).Broadcasts ⟨2, ![a, b]⟩) (i : Fin a) (j : Fin b) :
    broadcastTo ⟨2, ![a, b]⟩ (transpose ⟨2, ![1, b]⟩ [1, 0] (shapeCast ⟨2, ![b, 1]⟩ w hc) ht) hb (ix2 i j) = w (ix1 j) :=
  (broadcastTo_1b_ab_apply _ hb i j).trans
    ((transpose_ix2_apply _ ht (0 : Fin 1) j).trans (shapeCast_a_a1_apply w hc j 0))

end Cert.ColumnLayout
-- ==== Proof.LibDenseLayer.lean ====
/-
  The dense half of a graph-convolution layer, as plain functions of matrices of extended reals.

  A layer multiplies an `[a, K]` matrix `x` by a `[K, N]` matrix `w` and then either clamps every entry at zero from
  below (`reluLayer`) or normalises every row by the softmax (`softmaxLayer`): the row's entries minus the row's
  maximum, exponentiated, divided by the row's sum of those exponentials. Everything is stated entry by entry, at
  the row `r` and the column `q`, so that it reads the same on a block of rows and on the whole matrix: entry
  `(r, q)` of either layer depends on `x` only through row `r` (`prodRow_congr`).

  Then each operation a vector program or a host program spells these layers with, read at an index at the ideal
  values: a matrix product into a zero accumulator and a `dot_general` as `prodRow` (for dimension numbers that
  contract the second axis of the left operand with the first of the right: `PlainDot`), a row maximum taken by a
  vector reduction or by a host reduction as the fold of `max` over the row, a host row sum as the initial value plus
  the sum over the row; and a vector program's whole row softmax (`vector_softmax_apply`), its column of row maxima and
  its column of row sums laid over the columns by a shape cast and a broadcast.

  All are generic in the extents.
-/
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws
import proofs.«149284_j4020089389121_1_alg».proof.Proof.LibColumnLayout

noncomputable section

namespace Cert.DenseLayer

open Idealize.ShloMosaic Idealize.ShloMosaic.ValueIdx

/-- A `[p, q]` matrix of extended reals, indexed as the arrays are. -/
abbrev Mat (p q : ℕ) : Type := (⟨2, ![p, q]⟩ : Shape).Idx → EReal

variable {a K N : ℕ}

/-! ## The layers -/

/-- Row `r` of the product `x · w`: in column `q` the sum over `k` of `x (r, k) · w (k, q)`. -/
def prodRow (x : Mat a K) (w : Mat K N) (r : Fin a) : Fin N → EReal :=
  fun q => ∑ k : Fin K, x (ix2 r k) * w (ix2 k q)

/-- A row of the product depends on the left matrix only through that row: two left matrices, of any heights,
    that agree along a row of each give the same row of products. -/
theorem prodRow_congr {a' : ℕ} (x : Mat a K) (x' : Mat a' K) (w : Mat K N) (r : Fin a) (r' : Fin a')
    (h : ∀ k, x (ix2 r k) = x' (ix2 r' k)) : prodRow x w r = prodRow x' w r' :=
  funext fun q => Finset.sum_congr rfl fun k _ => by rw [h k]

/-- The product clamped at zero from below, entry by entry (the zero written as the word a program writes). -/
def reluLayer (x : Mat a K) (w : Mat K N) : Mat a N :=
  fun i => max (prodRow x w (i 0) (i 1)) (Ideal.ofBits .f32 0x00000000#32)

/-- The maximum of a row, taken from `-∞` (the word a program writes) and once more against `-∞`. -/
def rowTop (z : Fin N → EReal) : EReal :=
  max (Ideal.ofBits .f32 0xFF800000#32) (Finset.univ.fold max (Ideal.ofBits .f32 0xFF800000#32) z)

/-- The softmax of a row at column `q`: `exp (z q - top)` over the sum of `exp (z j - top)` along the row. -/
def softmaxRow (z : Fin N → EReal) (q : Fin N) : EReal :=
  Ideal.div (Ideal.exp (z q - rowTop z)) (∑ j : Fin N, Ideal.exp (z j - rowTop z))

/-- The product with every row normalised by the softmax. -/
def softmaxLayer (x : Mat a K) (w : Mat K N) : Mat a N :=
  fun i => softmaxRow (prodRow x w (i 0)) (i 1)

theorem reluLayer_apply (x : Mat a K) (w : Mat K N) (r : Fin a) (q : Fin N) :
    reluLayer x w (ix2 r q) = max (prodRow x w r q) (Ideal.ofBits .f32 0x00000000#32) := rfl

theorem softmaxLayer_apply (x : Mat a K) (w : Mat K N) (r : Fin a) (q : Fin N) :
    softmaxLayer x w (ix2 r q) = softmaxRow (prodRow x w r) q := rfl

/-! ## A matrix product read at an index -/

/-- Dimension numbers of a plain product `[a, K] × [K, N] → [a, N]`: one contracted axis of extent `K`, the left
    operand read at `(row, k)` and the right at `(k, column)`. -/
structure PlainDot (d : DotDims ⟨2, ![a, K]⟩ ⟨2, ![K, N]⟩ ⟨2, ![a, N]⟩) : Prop where
  rank : d.contr.rank = 1
  size : d.contr.size ⟨0, by omega⟩ = K
  lhs0 : ∀ (i : (⟨2, ![a, N]⟩ : Shape).Idx) (q : d.contr.Idx), (d.lhsIdx i q 0).val = (i 0).val
  lhs1 : ∀ (i : (⟨2, ![a, N]⟩ : Shape).Idx) (q : d.contr.Idx), (d.lhsIdx i q 1).val = (q ⟨0, by omega⟩).val
  rhs0 : ∀ (i : (⟨2, ![a, N]⟩ : Shape).Idx) (q : d.contr.Idx), (d.rhsIdx i q 0).val = (q ⟨0, by omega⟩).val
  rhs1 : ∀ (i : (⟨2, ![a, N]⟩ : Shape).Idx) (q : d.contr.Idx), (d.rhsIdx i q 1).val = (i 1).val

/-- The contraction's sum over its own index type is the sum over `k : Fin K` of the row times the column. -/
theorem sum_contr_eq_prodRow {d : DotDims ⟨2, ![a, K]⟩ ⟨2, ![K, N]⟩ ⟨2, ![a, N]⟩} (hd : PlainDot d)
    (x : Mat a K) (w : Mat K N) (i : (⟨2, ![a, N]⟩ : Shape).Idx) :
    ∑ k : d.contr.Idx, x (d.lhsIdx i k) * w (d.rhsIdx i k) = prodRow x w (i 0) (i 1) := by
  unfold prodRow
  rw [← Equiv.sum_comp (contrEquiv1 d K hd.rank hd.size).symm]
  refine Finset.sum_congr rfl fun k _ => ?_
  have hk := contrEquiv1_symm_val d K hd.rank hd.size k
  have el : d.lhsIdx i ((contrEquiv1 d K hd.rank hd.size).symm k) = ix2 (i 0) k := funext fun ax => Fin.ext (by
    match ax with
    | ⟨0, _⟩ => exact hd.lhs0 _ _
    | ⟨1, _⟩ => exact (hd.lhs1 _ _).trans hk)
  have er : d.rhsIdx i ((contrEquiv1 d K hd.rank hd.size).symm k) = ix2 k (i 1) := funext fun ax => Fin.ext (by
    match ax with
    | ⟨0, _⟩ => exact (hd.rhs0 _ _).trans hk
    | ⟨1, _⟩ => exact hd.rhs1 _ _)
  rw [el, er]
  rfl

/-- A vector program's matrix product into the zero accumulator, at the ideal values, is `prodRow` entry by entry,
    whatever the operands' float formats. -/
theorem matmul_zero_apply {φ₁ φ₂ : FTy} {d : DotDims ⟨2, ![a, K]⟩ ⟨2, ![K, N]⟩ ⟨2, ![a, N]⟩} (hd : PlainDot d)
    (prec : Option ContractPrecision) (x : FVec Ideal ⟨2, ![a, K]⟩ φ₁) (w : FVec Ideal ⟨2, ![K, N]⟩ φ₂)
    (i : (⟨2, ![a, N]⟩ : Shape).Idx) :
    FloatOps.matmul d prec x w (constant ⟨2, ![a, N]⟩ .f32 0x00000000#32) i = prodRow x w (i 0) (i 1) :=
  (Ideal.matmul_constant_zero_apply d prec x w i).trans (sum_contr_eq_prodRow hd x w i)

/-- A host program's `dot_general`, at the ideal values, is `prodRow` entry by entry. -/
theorem dotGeneral_apply {φ₁ φ₂ : FTy} {d : DotDims ⟨2, ![a, K]⟩ ⟨2, ![K, N]⟩ ⟨2, ![a, N]⟩} (hd : PlainDot d)
    (prec : Option ContractPrecision) (sched : HostSchedule) (x : FVec Ideal ⟨2, ![a, K]⟩ φ₁)
    (w : FVec Ideal ⟨2, ![K, N]⟩ φ₂) (i : (⟨2, ![a, N]⟩ : Shape).Idx) :
    FloatOps.dotGeneral d prec sched x w i = prodRow x w (i 0) (i 1) :=
  (Ideal.dotGeneral_apply d prec sched x w i).trans (sum_contr_eq_prodRow hd x w i)

/-! ## A row's maximum and a row's sum read at an index -/

/-- Inserting the coordinate `k` on the second axis over the row index `p` gives `(p, k)`. -/
theorem lift_rows {b : ℕ} (h : (⟨2, ![a, b]⟩ : Shape).Reduces [1] ⟨1, ![a]⟩) (p : Fin a) (k : Fin b) :
    h.lift (ix1 p) k = ix2 p k :=
  funext fun ax => Fin.ext (by
    match ax with
    | ⟨0, _⟩ => rfl
    | ⟨1, _⟩ => rfl)

/-- A vector program's maximum over the second axis of `[a, b]`, at row `p` at the ideal values: the fold of `max`
    from the accumulator's value over the row's `b` entries. -/
theorem multiReduction_max_rows_apply {b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun k => src (ix2 p k)) :=
  (Ideal.multiReduction_maximumf_single src acc h hφ hacc (ix1 p)).trans
    (congrArg (fun f : Fin b → EReal => (Finset.univ : Finset (Fin b)).fold max (Ideal.ofBits φ acc) f)
      (funext fun k => congrArg src (lift_rows h p k)))

/-- A host program's maximum over the second axis of `[a, b]`, at row `p` at the ideal values: the fold of `max`
    from the initial value over the row's `b` entries. -/
theorem hostReduce_max_rows_apply {b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce (FloatOps.maximumf (F := Ideal) (φ := φ)) x init h' hu (ix1 p)
      = (Finset.univ : Finset (Fin b)).fold max (init (Shape.Idx.first hu)) (fun k => x (ix2 p k)) :=
  (Host.reduce_eq_fold_single (FloatOps.maximumf (F := Ideal) (φ := φ)) x init h' h hu (ix1 p)).trans
    (congrArg (fun f : Fin b → EReal => (Finset.univ : Finset (Fin b)).fold max (init (Shape.Idx.first hu)) f)
      (funext fun k => congrArg x (lift_rows h p k)))

/-! ## A vector program's row softmax read at an index -/

section VectorSoftmax

variable {b : ℕ} (z : FVec Ideal ⟨2, ![a, b]⟩ .f32)
  (hr : (⟨2, ![a, b]⟩ : Shape).Reduces [1] ⟨1, ![a]⟩) (hc : (⟨1, ![a]⟩ : Shape).ShapeCasts ⟨2, ![a, 1]⟩)
  (hb : (⟨2, ![a, 1]⟩ : Shape).Broadcasts ⟨2, ![a, b]⟩) (hφ : FKind.Formats .f32)
  (hmax : (0xFF800000#32 : BitVec 32) = FKind.maximumf.neutral .f32 hφ)
  (hadd : (0x00000000#32 : BitVec 32) = FKind.add.neutral .f32 hφ)

/-- The row maxima of `z` as a vector program takes them — the reduction from `-∞`, once more against a splat of
    `-∞` — set as a column and laid over the `b` columns. -/
def vecTop : FVec Ideal ⟨2, ![a, b]⟩ .f32 :=
  broadcastTo ⟨2, ![a, b]⟩
    (shapeCast ⟨2, ![a, 1]⟩
      (maximumf (broadcast ⟨1, ![a]⟩ (Scalar.ofBits (F := Ideal) .f32 0xFF800000#32))
        (multiReduction .maximumf [1] ⟨1, ![a]⟩ z 0xFF800000#32 hr hφ hmax)) hc) hb

/-- At `(p, q)` it is the maximum of row `p`, whatever the column. -/
theorem vecTop_apply (p : Fin a) (q : Fin b) :
    vecTop z hr hc hb hφ hmax (ix2 p q) = rowTop (fun k => z (ix2 p k)) :=
  (Cert.ColumnLayout.column_over_columns_apply _ hc hb p q).trans
    (congrArg (max (Ideal.ofBits .f32 0xFF800000#32)) (multiReduction_max_rows_apply z _ hr hφ hmax p))

/-- The whole row softmax of a vector program — the entries minus the laid-out row maxima, exponentiated, divided by
    their row sums laid out the same way — is `softmaxRow` of the row, entry by entry. -/
theorem vector_softmax_apply (p : Fin a) (q : Fin b) :
    divf (exp (subf z (vecTop z hr hc hb hφ hmax)))
        (broadcastTo ⟨2, ![a, b]⟩
          (shapeCast ⟨2, ![a, 1]⟩
            (multiReduction .add [1] ⟨1, ![a]⟩ (exp (subf z (vecTop z hr hc hb hφ hmax))) 0x00000000#32 hr hφ hadd) hc) hb)
        (ix2 p q)
      = softmaxRow (fun k => z (ix2 p k)) q := by
  have hE : ∀ k : Fin b, exp (subf z (vecTop z hr hc hb hφ hmax)) (ix2 p k)
      = Ideal.exp (z (ix2 p k) - rowTop (fun k => z (ix2 p k))) := fun k => by
    show Ideal.exp (z (ix2 p k) - vecTop z hr hc hb hφ hmax (ix2 p k)) = _
    rw [vecTop_apply]
  show Ideal.div (exp (subf z (vecTop z hr hc hb hφ hmax)) (ix2 p q)) _ = _
  rw [hE q, Cert.ColumnLayout.column_over_columns_apply, Cert.ColumnLayout.multiReduction_add_rows_apply]
  unfold softmaxRow
  exact congrArg (Ideal.div _) (Finset.sum_congr rfl fun k _ => hE k)

end VectorSoftmax

end Cert.DenseLayer

end
-- ==== Proof.Layer1Value.lean ====
/-
  The first kernel call read as a whole-array function.

  The call walks ten blocks of 5000 rows of its left operand `X` (50000 × 128); at each it loads the block and the
  whole weight matrix `W` (128 × 128), multiplies them, clamps the product at zero from below and stores the result
  as the same block of rows of its output. An entry of the product in row `r` reads only row `r` of `X`, so block `t`
  of the output is block `t` of `reluLayer X W`; the ten blocks tile the output, so the output array ends holding
  `reluLayer X W`, for whatever contents `V` the call finds in its operands' buffers.
-/
import proofs.«149284_j4020089389121_1_alg».proof.Proof.Gen.KernelIdeal.Frame
import proofs.«149284_j4020089389121_1_alg».proof.Proof.LibDenseLayer
import Idealize.ShloMosaic.Lib.Pipeline.Value

set_option maxRecDepth 16384

noncomputable section

namespace Cert.KernelIdeal.Layer1

open Cert.KernelIdeal Cert.KernelIdeal.Gen Cert.DenseLayer
open Idealize.ShloMosaic Idealize.ShloMosaic.TcCoe Idealize.ShloMosaic.ValueIdx Idealize.SL.Sem
open Idealize.ShloMosaic.Pipeline (Dat Cfg Window)

/-- The body's product contracts the block's columns with the weight's rows. -/
theorem plainDot : PlainDot (a := 5000) (K := 128) (N := 128) dot_S5000x128_S128x128_S5000x128_1_0_0_1_n_n where
  rank := rfl
  size := rfl
  lhs0 := fun i q => by
    unfold DotDims.lhsIdx
    rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
    rfl
  lhs1 := fun i q => dot_S5000x128_S128x128_S5000x128_1_0_0_1_n_n.lhsIdx_val_of_single rfl i q
  rhs0 := fun i q => dot_S5000x128_S128x128_S5000x128_1_0_0_1_n_n.rhsIdx_val_of_single rfl i q
  rhs1 := fun i q => by
    unfold DotDims.rhsIdx
    rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
    rfl

/-- What the body stores, at row `p` and column `q` of the block: the block's row `p` times the weight's column
    `q`, clamped at zero (the two changes of float format are the identity at the ideal values). -/
theorem pay_apply (v0 : Vec Ideal S5000x128 .f32) (v3 : Vec Ideal S128x128 .f32) (p : Fin 5000) (q : Fin 128) :
    k0_pay1 (F := Ideal) v0 v3 (ix2 p q) = max (prodRow v0 v3 p q) (Ideal.ofBits .f32 0x00000000#32) := by
  unfold k0_pay1
  have hx : (truncf (F := Ideal) .bf16 (shapeCast S5000x128 v0 shapeCasts_S5000x128_S5000x128) bitsLt_bf16_f32 : FVec Ideal S5000x128 .bf16) = v0 := by
    rw [shapeCast_self]; rfl
  show max (FloatOps.matmul dot_S5000x128_S128x128_S5000x128_1_0_0_1_n_n none (truncf (F := Ideal) .bf16 (shapeCast S5000x128 v0 shapeCasts_S5000x128_S5000x128) bitsLt_bf16_f32) (truncf (F := Ideal) .bf16 v3 bitsLt_bf16_f32) (constant S5000x128 .f32 0x00000000#32) (ix2 p q)) (Ideal.ofBits .f32 0x00000000#32) = _
  rw [hx, matmul_zero_apply plainDot]
  rfl

/-- The stored entry against the whole-array function: if the loaded block's row `p` is row `i 0` of `X` and the
    loaded weight's column `q` is column `i 1` of `W`, the entry stored at `(p, q)` is `reluLayer X W` at `i`. -/
theorem point_eq (x0 : Vec Ideal S5000x128 .f32) (x1 : Vec Ideal S128x128 .f32) (X : Mat 50000 128) (W : Mat 128 128)
    (p : Fin 5000) (q : Fin 128) (i : (⟨2, ![50000, 128]⟩ : Shape).Idx)
    (hx : ∀ k : Fin 128, x0 (ix2 p k) = X (ix2 (i 0) k)) (hw : ∀ k : Fin 128, x1 (ix2 k q) = W (ix2 k (i 1))) :
    k0_pay1 (F := Ideal) x0 x1 (ix2 p q) = reluLayer X W i := by
  rw [pay_apply]
  show max (prodRow x0 x1 p q) _ = max (prodRow X W (i 0) (i 1)) _
  refine congrArg (fun z => max z (Ideal.ofBits .f32 0x00000000#32)) ?_
  unfold prodRow
  exact Finset.sum_congr rfl fun k _ => by rw [hx k, hw k]

theorem origin_zero : (![0, 0] : Fin 2 → Nat) = fun _ => 0 := funext fun a => by fin_cases a <;> rfl

/-- The printed index maps, decided over the ten grid points: the left operand's block moves with the output's along
    the rows, neither moves along the columns, and the weight matrix is always its one block. -/
theorem blocks_move_with_rows : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 9 :=
  (by decide +kernel : ∀ t : Fin grid0.N, _)

/-- Every block of rows is some point's. -/
theorem every_row_block_reached : ∀ q0 : Fin 10, ∃ t : Fin cfg0.N, win0_2.index t = ![q0.val, 0] :=
  (by decide +kernel : ∀ q0 : Fin 10, ∃ t : Fin grid0.N, win0_2.index t = ![q0.val, 0])

variable (V : (c : Dev nD) → (b : Ref sig .tc) → Buf (Elt Ideal) ((c : Thread nD τ).loc b))

/-- What point `t` writes back is block `t` of `reluLayer` of the operands as the call finds them. -/
theorem written_back_eq (c : Dev nD) (t : Fin cfg0.N) :
    (dat0 V c).flushed 2 t = ((cfg0.win 2).blk t).view.read (Elt Ideal) (reluLayer (a := 50000) (K := 128) (N := 128) (V c main_v12) (V c main_arg4)) := by
  show (cfg0.win 2).cut (grid0.coords t) ((dat0 V c).after 2 t) = _
  rw [after0_2]
  unfold out0_2
  rw [View.canon_unit_zero origin_zero]
  simp only [View.ld_unit_zero (S := S5000x128) origin_zero, View.ld_unit_zero (S := S128x128) origin_zero]
  obtain ⟨e0, e1, e2, e3, e4, e5⟩ := blocks_move_with_rows t
  funext j
  obtain ⟨p, q, rfl⟩ : ∃ (p : Fin 5000) (q : Fin 128), j = ix2 p q := ⟨j 0, j 1, eq_ix2 j⟩
  show k0_pay1 (F := Ideal) (iblk0 V c 0 t) (iblk0 V c 1 t) (ix2 p q)
    = reluLayer (a := 50000) (K := 128) (N := 128) (V c main_v12) (V c main_arg4) (((cfg0.win 2).blk t).view.emb (ix2 p q))
  refine point_eq _ _ _ _ p q _ (fun k => ?_) (fun k => ?_)
  · show V c main_v12 (((cfg0.win 0).blk t).view.emb (ix2 p k)) = V c main_v12 (ix2 ((((cfg0.win 2).blk t).view.emb (ix2 p q)) 0) k)
    have h0 : ((cfg0.win 0).blk t).view.emb (ix2 p k) = ix2 ((((cfg0.win 2).blk t).view.emb (ix2 p q)) 0) k := by
      funext a; apply Fin.ext
      match a with
      | ⟨0, _⟩ => show win0_0.index t (0 : Fin 2) * 5000 + 1 * p.val = win0_2.index t (0 : Fin 2) * 5000 + 1 * p.val; omega
      | ⟨1, _⟩ => show win0_0.index t (1 : Fin 2) * 128 + 1 * k.val = k.val; omega
    exact congrArg (V c main_v12) h0
  · show V c main_arg4 (((cfg0.win 1).blk t).view.emb (ix2 k q)) = V c main_arg4 (ix2 k ((((cfg0.win 2).blk t).view.emb (ix2 p q)) 1))
    have h1 : ((cfg0.win 1).blk t).view.emb (ix2 k q) = ix2 k ((((cfg0.win 2).blk t).view.emb (ix2 p q)) 1) := by
      funext a; apply Fin.ext
      match a with
      | ⟨0, _⟩ => show win0_1.index t (0 : Fin 2) * 128 + 1 * k.val = k.val; omega
      | ⟨1, _⟩ => show win0_1.index t (1 : Fin 2) * 128 + 1 * q.val = win0_2.index t (1 : Fin 2) * 128 + 1 * q.val; omega
    exact congrArg (V c main_arg4) h1

/-- An index of the output array is in point `t`'s block iff each coordinate is in the block's range on its axis. -/
theorem mem_row_block (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v13).slice (win0_2.rect t)).set ↔ _
  rw [View.set_slice_whole, Rect.mem_set_unit]
  exact Iff.rfl

/-- The ten blocks of rows tile the output: row `r` is in the block of point `r / 5000`. -/
theorem row_blocks_tile (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := every_row_block_reached ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_row_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The output array after the call: `reluLayer` of the two operands as the call finds them. -/
theorem output_eq (c : Dev nD) :
    (dat0 V c).arrAt 2 cfg0.N = reluLayer (a := 50000) (K := 128) (N := 128) (V c main_v12) (V c main_arg4) :=
  (dat0 V c).arrAt_eq_of_cover 2 _ (fun t _ => written_back_eq V c t) row_blocks_tile

end Cert.KernelIdeal.Layer1

end
-- ==== Proof.Layer2Value.lean ====
/-
  The second kernel call read as a whole-array function.

  The call walks ten blocks of 5000 rows of its left operand `X` (50000 × 128); at each it loads the block and the
  whole weight matrix `W` (128 × 64), multiplies them, normalises every row of the product by the softmax — the
  row's maximum subtracted, the exponentials divided by their sum along the row — and stores the result as the same
  block of rows of its output. A row of the result reads only the same row of `X`, so block `t` of the output is
  block `t` of `softmaxLayer X W`; the ten blocks tile the output, so the output array ends holding
  `softmaxLayer X W`, for whatever contents `V` the call finds in its operands' buffers.
-/
import proofs.«149284_j4020089389121_1_alg».proof.Proof.Gen.KernelIdeal.Frame
import proofs.«149284_j4020089389121_1_alg».proof.Proof.LibDenseLayer
import Idealize.ShloMosaic.Lib.Pipeline.Value

set_option maxRecDepth 16384

noncomputable section

namespace Cert.KernelIdeal.Layer2

open Cert.KernelIdeal Cert.KernelIdeal.Gen Cert.DenseLayer
open Idealize.ShloMosaic Idealize.ShloMosaic.TcCoe Idealize.ShloMosaic.ValueIdx Idealize.SL.Sem
open Idealize.ShloMosaic.Pipeline (Dat Cfg Window)

/-- The body's product contracts the block's columns with the weight's rows. -/
theorem plainDot : PlainDot (a := 5000) (K := 128) (N := 64) dot_S5000x128_S128x64_S5000x64_1_0_0_1_n_n where
  rank := rfl
  size := rfl
  lhs0 := fun i q => by
    unfold DotDims.lhsIdx
    rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
    rfl
  lhs1 := fun i q => dot_S5000x128_S128x64_S5000x64_1_0_0_1_n_n.lhsIdx_val_of_single rfl i q
  rhs0 := fun i q => dot_S5000x128_S128x64_S5000x64_1_0_0_1_n_n.rhsIdx_val_of_single rfl i q
  rhs1 := fun i q => by
    unfold DotDims.rhsIdx
    rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
    rfl

/-- What the body stores, at row `p` and column `q` of the block: the softmax, at column `q`, of the block's row
    `p` times the weight matrix (the two changes of float format are the identity at the ideal values). -/
theorem pay_apply (v0 : Vec Ideal S5000x128 .f32) (v3 : Vec Ideal S128x64 .f32) (p : Fin 5000) (q : Fin 64) :
    k1_pay1 (F := Ideal) v0 v3 (ix2 p q) = softmaxRow (prodRow v0 v3 p) q := by
  have hx : (truncf (F := Ideal) .bf16 (shapeCast S5000x128 v0 shapeCasts_S5000x128_S5000x128) bitsLt_bf16_f32 : FVec Ideal S5000x128 .bf16) = v0 := by
    rw [shapeCast_self]; rfl
  have key := vector_softmax_apply (a := 5000) (b := 64)
    (matmul dot_S5000x128_S128x64_S5000x64_1_0_0_1_n_n none (truncf (F := Ideal) .bf16 (shapeCast S5000x128 v0 shapeCasts_S5000x128_S5000x128) bitsLt_bf16_f32)
      (truncf (F := Ideal) .bf16 v3 bitsLt_bf16_f32) (constant S5000x64 .f32 0x00000000#32))
    reduces_S5000x64_S5000 shapeCasts_S5000_S5000x1 broadcasts_S5000x1_S5000x64 (.inl rfl) rfl rfl p q
  refine Eq.trans ?_ (key.trans ?_)
  · rfl
  · refine congrArg (fun f => softmaxRow f q) (funext fun k => ?_)
    show FloatOps.matmul dot_S5000x128_S128x64_S5000x64_1_0_0_1_n_n none (truncf (F := Ideal) .bf16 (shapeCast S5000x128 v0 shapeCasts_S5000x128_S5000x128) bitsLt_bf16_f32) (truncf (F := Ideal) .bf16 v3 bitsLt_bf16_f32) (constant S5000x64 .f32 0x00000000#32) (ix2 p k) = prodRow v0 v3 p k
    rw [hx, matmul_zero_apply plainDot]
    rfl

/-- The stored entry against the whole-array function: if the loaded block's row `p` is row `i 0` of `X`, the loaded
    weight is `W`, and `q` is the column `i 1`, the entry stored at `(p, q)` is `softmaxLayer X W` at `i`. -/
theorem point_eq (x0 : Vec Ideal S5000x128 .f32) (x1 : Vec Ideal S128x64 .f32) (X : Mat 50000 128) (W : Mat 128 64)
    (p : Fin 5000) (q : Fin 64) (i : (⟨2, ![50000, 64]⟩ : Shape).Idx)
    (hx : ∀ k : Fin 128, x0 (ix2 p k) = X (ix2 (i 0) k)) (hw : ∀ (k : Fin 128) (j : Fin 64), x1 (ix2 k j) = W (ix2 k j))
    (hq : q = i 1) :
    k1_pay1 (F := Ideal) x0 x1 (ix2 p q) = softmaxLayer X W i := by
  rw [pay_apply]
  show softmaxRow (prodRow x0 x1 p) q = softmaxRow (prodRow X W (i 0)) (i 1)
  have hrow : prodRow x0 x1 p = prodRow X W (i 0) :=
    funext fun j => Finset.sum_congr rfl fun k _ => by rw [hx k, hw k j]
  rw [hrow, hq]

theorem origin_zero : (![0, 0] : Fin 2 → Nat) = fun _ => 0 := funext fun a => by fin_cases a <;> rfl

/-- The printed index maps, decided over the ten grid points: the left operand's block moves with the output's along
    the rows, neither moves along the columns, and the weight matrix is always its one block. -/
theorem blocks_move_with_rows : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) ≤ 9 :=
  (by decide +kernel : ∀ t : Fin grid1.N, _)

/-- Every block of rows is some point's. -/
theorem every_row_block_reached : ∀ q0 : Fin 10, ∃ t : Fin cfg1.N, win1_2.index t = ![q0.val, 0] :=
  (by decide +kernel : ∀ q0 : Fin 10, ∃ t : Fin grid1.N, win1_2.index t = ![q0.val, 0])

variable (V : (c : Dev nD) → (b : Ref sig .tc) → Buf (Elt Ideal) ((c : Thread nD τ).loc b))

/-- What point `t` writes back is block `t` of `softmaxLayer` of the operands as the call finds them. -/
theorem written_back_eq (c : Dev nD) (t : Fin cfg1.N) :
    (dat1 V c).flushed 2 t = ((cfg1.win 2).blk t).view.read (Elt Ideal) (softmaxLayer (a := 50000) (K := 128) (N := 64) (V c main_v26) (V c main_arg5)) := by
  show (cfg1.win 2).cut (grid1.coords t) ((dat1 V c).after 2 t) = _
  rw [after1_2]
  unfold out1_2
  rw [View.canon_unit_zero origin_zero]
  simp only [View.ld_unit_zero (S := S5000x128) origin_zero, View.ld_unit_zero (S := S128x64) origin_zero]
  obtain ⟨e0, e1, e2, e3, e4, e5⟩ := blocks_move_with_rows t
  funext j
  obtain ⟨p, q, rfl⟩ : ∃ (p : Fin 5000) (q : Fin 64), j = ix2 p q := ⟨j 0, j 1, eq_ix2 j⟩
  show k1_pay1 (F := Ideal) (iblk1 V c 0 t) (iblk1 V c 1 t) (ix2 p q)
    = softmaxLayer (a := 50000) (K := 128) (N := 64) (V c main_v26) (V c main_arg5) (((cfg1.win 2).blk t).view.emb (ix2 p q))
  refine point_eq _ _ _ _ p q _ (fun k => ?_) (fun k j => ?_) ?_
  · show V c main_v26 (((cfg1.win 0).blk t).view.emb (ix2 p k)) = V c main_v26 (ix2 ((((cfg1.win 2).blk t).view.emb (ix2 p q)) 0) k)
    have h0 : ((cfg1.win 0).blk t).view.emb (ix2 p k) = ix2 ((((cfg1.win 2).blk t).view.emb (ix2 p q)) 0) k := by
      funext a; apply Fin.ext
      match a with
      | ⟨0, _⟩ => show win1_0.index t (0 : Fin 2) * 5000 + 1 * p.val = win1_2.index t (0 : Fin 2) * 5000 + 1 * p.val; omega
      | ⟨1, _⟩ => show win1_0.index t (1 : Fin 2) * 128 + 1 * k.val = k.val; omega
    exact congrArg (V c main_v26) h0
  · show V c main_arg5 (((cfg1.win 1).blk t).view.emb (ix2 k j)) = V c main_arg5 (ix2 k j)
    have h1 : ((cfg1.win 1).blk t).view.emb (ix2 k j) = ix2 k j := by
      funext a; apply Fin.ext
      match a with
      | ⟨0, _⟩ => show win1_1.index t (0 : Fin 2) * 128 + 1 * k.val = k.val; omega
      | ⟨1, _⟩ => show win1_1.index t (1 : Fin 2) * 64 + 1 * j.val = j.val; omega
    exact congrArg (V c main_arg5) h1
  · apply Fin.ext
    show q.val = win1_2.index t (1 : Fin 2) * 64 + 1 * q.val
    omega

/-- An index of the output array is in point `t`'s block iff each coordinate is in the block's range on its axis. -/
theorem mem_row_block (t : Fin cfg1.N) (i : S50000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v27).slice (win1_2.rect t)).set ↔ _
  rw [View.set_slice_whole, Rect.mem_set_unit]
  exact Iff.rfl

/-- The ten blocks of rows tile the output: row `r` is in the block of point `r / 5000`. -/
theorem row_blocks_tile (i : S50000x64.Idx) :
    ∃ t : Fin cfg1.N, (cfg1.win 2).flush t = true ∧ i ∈ ((cfg1.win 2).blk t).view.set := by
  have hi0 : (i 0).val < 50000 := (i 0).isLt
  have hi1 : (i 1).val < 64 := (i 1).isLt
  obtain ⟨t, ht⟩ := every_row_block_reached ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_row_block]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 64 ≤ (i 1).val ∧ (i 1).val < win1_2.index t (1 : Fin 2) * 64 + 64; omega

/-- The output array after the call: `softmaxLayer` of the two operands as the call finds them. -/
theorem output_eq (c : Dev nD) :
    (dat1 V c).arrAt 2 cfg1.N = softmaxLayer (a := 50000) (K := 128) (N := 64) (V c main_v26) (V c main_arg5) :=
  (dat1 V c).arrAt_eq_of_cover 2 _ (fun t _ => written_back_eq V c t) row_blocks_tile

end Cert.KernelIdeal.Layer2

end
-- ==== Proof.KernelValue.lean ====
/-
  The kernel's program, read as one function of its arguments.

  @main is four segments: the sparse product of the embeddings, the first kernel call (relu of the product with
  the first weight matrix), the sparse product of that result, the second kernel call (row softmax of the product
  with the second weight matrix). The contents of the result buffer at the last boundary are walked back through
  the four: the second call's output array is `softmaxLayer` of its operands as it finds them, its left operand is
  what the second stretch leaves, that stretch reads the first call's output array, which is `reluLayer` of its
  operands, whose left operand is what the first stretch leaves from the launch memory. No segment writes an argument.
-/
import proofs.«149284_j4020089389121_1_alg».proof.Proof.KernelRun
import proofs.«149284_j4020089389121_1_alg».proof.Proof.KernelStretch
import proofs.«149284_j4020089389121_1_alg».proof.Proof.Layer1Value
import proofs.«149284_j4020089389121_1_alg».proof.Proof.Layer2Value

set_option maxRecDepth 16384

noncomputable section

namespace Cert.KernelIdeal.Whole

open Cert.KernelIdeal Cert.KernelIdeal.Gen Cert.KernelIdeal.Stretch Cert.DenseLayer
open Idealize.ShloMosaic Idealize.ShloMosaic.TcCoe Idealize.SL.Sem

variable (m : (ℓ : Loc nD τ sig) → Buf (Elt Ideal) ℓ) (ρ : Dev nD → PrngReg)

/-- The two-layer graph convolution of the arguments on core `c`: the softmax layer of the sparse product of the
    relu layer of the sparse product of the embeddings. -/
def result (c : Dev nD) : Mat 50000 64 :=
  softmaxLayer (a := 50000) (K := 128) (N := 64)
    (spmm (F := Ideal) (m ((c.tc : Thread nD τ).loc main_arg1)) (m ((c.tc : Thread nD τ).loc main_arg2)) (m ((c.tc : Thread nD τ).loc main_arg3))
      (reluLayer (a := 50000) (K := 128) (N := 128)
        (spmm (F := Ideal) (m ((c.tc : Thread nD τ).loc main_arg1)) (m ((c.tc : Thread nD τ).loc main_arg2)) (m ((c.tc : Thread nD τ).loc main_arg3))
          (m ((c.tc : Thread nD τ).loc main_arg0)))
        (m ((c.tc : Thread nD τ).loc main_arg4))))
    (m ((c.tc : Thread nD τ).loc main_arg5))

/-- The first call's output array, as the second stretch finds it. -/
theorem first_call_result (c : Dev nD) :
    W2 m ρ c (Proc.devRef .tc main_v13)
      = reluLayer (a := 50000) (K := 128) (N := 128)
          (spmm (F := Ideal) (m ((c.tc : Thread nD τ).loc main_arg1)) (m ((c.tc : Thread nD τ).loc main_arg2)) (m ((c.tc : Thread nD τ).loc main_arg3))
            (m ((c.tc : Thread nD τ).loc main_arg0)))
          (m ((c.tc : Thread nD τ).loc main_arg4)) := by
  refine (W2_arr m ρ c 2).trans ((Layer1.output_eq (V1 m ρ) c).trans ?_)
  show reluLayer (a := 50000) (K := 128) (N := 128) (StableHlo.after (hostOps0 (F := Ideal)) (W0 m ρ c) (Proc.devRef .tc main_v12))
      (StableHlo.after (hostOps0 (F := Ideal)) (W0 m ρ c) (Proc.devRef .tc main_arg4)) = _
  rw [first_product, first_keeps_arg4]

/-- What the second stretch finds in an argument's buffer is what was launched. -/
theorem W2_arg1 (c : Dev nD) : W2 m ρ c (Proc.devRef .tc main_arg1) = m ((c.tc : Thread nD τ).loc main_arg1) :=
  (W2_of_ne m ρ c main_arg1 (by decide)).trans (first_keeps_arg1 (W0 m ρ c))
theorem W2_arg2 (c : Dev nD) : W2 m ρ c (Proc.devRef .tc main_arg2) = m ((c.tc : Thread nD τ).loc main_arg2) :=
  (W2_of_ne m ρ c main_arg2 (by decide)).trans (first_keeps_arg2 (W0 m ρ c))
theorem W2_arg3 (c : Dev nD) : W2 m ρ c (Proc.devRef .tc main_arg3) = m ((c.tc : Thread nD τ).loc main_arg3) :=
  (W2_of_ne m ρ c main_arg3 (by decide)).trans (first_keeps_arg3 (W0 m ρ c))
theorem W2_arg5 (c : Dev nD) : W2 m ρ c (Proc.devRef .tc main_arg5) = m ((c.tc : Thread nD τ).loc main_arg5) :=
  (W2_of_ne m ρ c main_arg5 (by decide)).trans (first_keeps_arg5 (W0 m ρ c))

/-- The result buffer at the last boundary holds the two-layer convolution of the arguments. -/
theorem last_boundary_result (c : Dev nD) : W4 m ρ c (Proc.devRef .tc main_v27) = result m c := by
  refine (W4_arr m ρ c 2).trans ((Layer2.output_eq (V3 m ρ) c).trans ?_)
  show softmaxLayer (a := 50000) (K := 128) (N := 64) (StableHlo.after (hostOps1 (F := Ideal)) (W2 m ρ c) (Proc.devRef .tc main_v26))
      (StableHlo.after (hostOps1 (F := Ideal)) (W2 m ρ c) (Proc.devRef .tc main_arg5)) = _
  rw [second_product, second_keeps_arg5, W2_arg1, W2_arg2, W2_arg3, W2_arg5, first_call_result]
  rfl

/-- Every weakly fair execution of @main terminates, nothing faulting, with the result buffer at `result` of the
    arguments and the arguments as launched. -/
theorem run : θ_run defs (onTc (τ := τ) (main (F := Ideal))) ⟨m, fun _ => 0, ρ⟩ (fun r => ∀ c : Dev nD,
      r.2.mem ((c.tc : Thread nD τ).loc main_v27) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (last_boundary_result m ρ c), (h c).2⟩)
    (Cert.KernelIdeal.GenRun.run_named m ρ)

end Cert.KernelIdeal.Whole

end
-- ==== Proof.RefValue.lean ====
/-
  The reference program's result, read as the two dense layers over its two sparse products.

  The reference multiplies the sparse product of the embeddings by the first weight matrix and clamps at zero; it
  takes the same sparse product of that result, multiplies by the second weight matrix and normalises every row by
  the softmax. Read at an index through the stages of its run, the first half is `reluLayer` and the second is
  `softmaxLayer`; the sparse product is carried as one function of the three edge arrays and a dense matrix and is
  never opened (its second use is the same chain of operations as its first, applied to the first layer's result).
-/
import proofs.«149284_j4020089389121_1_alg».proof.Proof.Gen.ReferenceIdeal.Read
import proofs.«149284_j4020089389121_1_alg».proof.Proof.LibDenseLayer

noncomputable section

namespace Cert.ReferenceIdeal.RefValue

open Cert.ReferenceIdeal Cert.ReferenceIdeal.Gen Cert.ReferenceIdeal.Read Cert.DenseLayer
open Idealize.ShloMosaic Idealize.ShloMosaic.TcCoe Idealize.ShloMosaic.ValueIdx Idealize.SL.Sem

variable (x0 : (⟨S50000x128, .f32⟩ : BufTy).Contents (Elt Ideal)) (x1 x2 : (⟨S800000, .i32⟩ : BufTy).Contents (Elt Ideal))
  (x3 : (⟨S800000, .f32⟩ : BufTy).Contents (Elt Ideal)) (x4 : (⟨S128x128, .f32⟩ : BufTy).Contents (Elt Ideal))
  (x5 : (⟨S128x64, .f32⟩ : BufTy).Contents (Elt Ideal))

/-- The first layer: the sparse product of the embeddings times the first weight matrix, clamped at zero. -/
theorem layer1_eq :
    val_main_v14 (F := Ideal) x0 x1 x2 x3 x4
      = reluLayer (a := 50000) (K := 128) (N := 128) (val_main_v12 (F := Ideal) x0 x1 x2 x3) x4 := by
  funext i
  obtain ⟨r, q, rfl⟩ : ∃ (r : Fin 50000) (q : Fin 128), i = ix2 r q := ⟨i 0, i 1, eq_ix2 i⟩
  have hl : ∀ k : Fin 128, lidx_main_v13 (ix2 r q) k = ix2 r k := fun k => funext fun a => Fin.ext (by
    match a with
    | ⟨0, _⟩ => rfl
    | ⟨1, _⟩ => rfl)
  have hr : ∀ k : Fin 128, ridx_main_v13 (ix2 r q) k = ix2 k q := fun k => funext fun a => Fin.ext (by
    match a with
    | ⟨0, _⟩ => rfl
    | ⟨1, _⟩ => rfl)
  rw [val_main_v14_apply, val_main_v13_apply, val_main_call0_v0_apply, val_main_call0_cst_apply]
  simp only [hl, hr]
  rfl

/-- The second sparse product is the first one's chain of operations, applied to the first layer's result. -/
theorem product2_eq :
    val_main_v27 (F := Ideal) x0 x1 x2 x3 x4
      = val_main_v12 (F := Ideal) (val_main_v14 (F := Ideal) x0 x1 x2 x3 x4) x1 x2 x3 := rfl

/-- The second layer: the second sparse product times the second weight matrix, every row normalised by the
    softmax. -/
theorem layer2_eq :
    val_main_v39 (F := Ideal) x0 x1 x2 x3 x4 x5
      = softmaxLayer (a := 50000) (K := 128) (N := 64) (val_main_v27 (F := Ideal) x0 x1 x2 x3 x4) x5 := by
  funext i
  obtain ⟨r, q, rfl⟩ : ∃ (r : Fin 50000) (q : Fin 64), i = ix2 r q := ⟨i 0, i 1, eq_ix2 i⟩
  -- the product's row
  have hz : ∀ j : Fin 64, val_main_v28 (F := Ideal) x0 x1 x2 x3 x4 x5 (ix2 r j)
      = prodRow (val_main_v27 (F := Ideal) x0 x1 x2 x3 x4) x5 r j := fun j => by
    have hl : ∀ k : Fin 128, lidx_main_v28 (ix2 r j) k = ix2 r k := fun k => funext fun a => Fin.ext (by
      match a with
      | ⟨0, _⟩ => rfl
      | ⟨1, _⟩ => rfl)
    have hr : ∀ k : Fin 128, ridx_main_v28 (ix2 r j) k = ix2 k j := fun k => funext fun a => Fin.ext (by
      match a with
      | ⟨0, _⟩ => rfl
      | ⟨1, _⟩ => rfl)
    rw [val_main_v28_apply]
    simp only [hl, hr]
    rfl
  -- the row's maximum
  have htop : val_main_v31 (F := Ideal) x0 x1 x2 x3 x4 x5 (ix1 r)
      = rowTop (prodRow (val_main_v27 (F := Ideal) x0 x1 x2 x3 x4) x5 r) := by
    rw [val_main_v31_apply, val_main_v30_apply, val_main_cst_5_apply]
    unfold val_main_v29
    rw [hostReduce_max_rows_apply _ _ reducesTo_S50000x64_S50000_d1 (by decide) h_S_ r]
    simp only [hz]
    rfl
  -- the exponentials along the row
  have hE : ∀ k : Fin 64, val_main_v35 (F := Ideal) x0 x1 x2 x3 x4 x5 (ix2 r k)
      = Ideal.exp (prodRow (val_main_v27 (F := Ideal) x0 x1 x2 x3 x4) x5 r k
          - rowTop (prodRow (val_main_v27 (F := Ideal) x0 x1 x2 x3 x4) x5 r)) := fun k => by
    have hi : idx_main_v32 (idx_main_v33 (ix2 r k)) = ix1 r := funext fun a => Fin.ext (by
      match a with
      | ⟨0, _⟩ => rfl)
    rw [val_main_v35_apply, val_main_v34_apply, val_main_v33_apply, val_main_v32_apply, hz k, hi, htop]
    rw [Ideal.hostUnary_exp_def, Ideal.subf_def]
  have hi' : idx_main_v37 (idx_main_v38 (ix2 r q)) = ix1 r := funext fun a => Fin.ext (by
    match a with
    | ⟨0, _⟩ => rfl)
  have hi36 : ∀ k : Fin 64, idx_main_v36 (ix1 r) k = ix2 r k := fun k => funext fun a => Fin.ext (by
    match a with
    | ⟨0, _⟩ => rfl
    | ⟨1, _⟩ => rfl)
  rw [val_main_v39_apply, val_main_v38_apply, val_main_v37_apply, hi', val_main_v36_apply, val_main_cst_6_apply]
  simp only [hi36, hE]
  show Ideal.div _ (Ideal.ofBits .f32 0x00000000#32 + _) = softmaxRow (prodRow (val_main_v27 (F := Ideal) x0 x1 x2 x3 x4) x5 r) q
  rw [Ideal.ofBits_zero_f32, zero_add]
  rfl

end Cert.ReferenceIdeal.RefValue

end
-- ==== Proof.lean ====
/-
  A two-layer graph convolution: the kernel's program against the plain reference, over the extended reals.

  Both programs compute, from node embeddings `E` (50000 × 128), a sparse adjacency matrix `A` given by its 800000
  edges (row index, column index, value) and two weight matrices `W₁` (128 × 128) and `W₂` (128 × 64),

      softmax_rows ( A · relu ( (A · E) · W₁ ) · W₂ ).

  The sparse products `A · X` are the same chain of host operations in both programs (a gather of the rows of `X` at
  the column indices, a product with the values, a scatter-add into a zero matrix at the row indices): it is carried
  as one function and never opened. The dense halves differ in how they are spelt. The reference takes each as a whole
  `dot_general`, a `maximum` with zero, and the softmax as a row maximum, a subtraction, an exponential, a row sum
  and a quotient over the whole 50000 × 64 matrix. The kernel's program takes each in a kernel call that walks ten
  blocks of 5000 rows: a matrix product of the block with the whole weight matrix into a zero accumulator (through two
  changes of float format that are the identity on the extended reals), then the clamp, or the same softmax steps
  along the block's rows. Entry `(r, q)` of either dense layer reads only row `r` of its left operand, so a block of
  the kernel's result is the same block of the reference's whole-matrix function, the ten blocks tile the result, and
  the two programs end with the same array. The equality is term by term — the same sums, maxima, exponentials and
  quotients of the same entries — so no finiteness of the inputs is used.

  The three frames: the kernel's program at both instances by its generated frame, the reference by its generated
  run. The idealization rewrote nothing, so there is nothing to preserve.
-/
import proofs.«149284_j4020089389121_1_alg».proof.Defs
import proofs.«149284_j4020089389121_1_alg».proof.Proof.Gen.Kernel
import proofs.«149284_j4020089389121_1_alg».proof.Proof.Gen.Kernel.Skeleton
import proofs.«149284_j4020089389121_1_alg».proof.Proof.Gen.Kernel.Launch
import proofs.«149284_j4020089389121_1_alg».proof.Proof.Gen.Kernel.Points
import proofs.«149284_j4020089389121_1_alg».proof.Proof.Gen.Kernel.Frame
import proofs.«149284_j4020089389121_1_alg».proof.Proof.Gen.KernelIdeal
import proofs.«149284_j4020089389121_1_alg».proof.Proof.Gen.KernelIdeal.Skeleton
import proofs.«149284_j4020089389121_1_alg».proof.Proof.Gen.KernelIdeal.Launch
import proofs.«149284_j4020089389121_1_alg».proof.Proof.Gen.KernelIdeal.Points
import proofs.«149284_j4020089389121_1_alg».proof.Proof.Gen.KernelIdeal.Frame
import proofs.«149284_j4020089389121_1_alg».proof.Proof.Gen.ReferenceIdeal
import proofs.«149284_j4020089389121_1_alg».proof.Proof.Gen.ReferenceIdeal.Run
import proofs.«149284_j4020089389121_1_alg».proof.Proof.Gen.ReferenceIdeal.Read
import proofs.«149284_j4020089389121_1_alg».proof.Proof.Gen.Pre_finite_inputs
import proofs.«149284_j4020089389121_1_alg».proof.Proof.KernelValue
import proofs.«149284_j4020089389121_1_alg».proof.Proof.RefValue
import Idealize.ShloMosaic.Adequacy
import Idealize.ShloMosaic.Init

noncomputable section

namespace Cert.Proof

open Idealize.ShloMosaic Idealize.SL.Sem

/-- The sparse product is one chain of operations in both programs: the reference's stage, as a function of the
    dense matrix it is applied to and of the three edge arrays, is the kernel program's `spmm`. -/
theorem spmm_eq (X : (⟨Cert.ReferenceIdeal.S50000x128, .f32⟩ : BufTy).Contents (Elt Ideal))
    (rows cols : (⟨Cert.ReferenceIdeal.S800000, .i32⟩ : BufTy).Contents (Elt Ideal))
    (vals : (⟨Cert.ReferenceIdeal.S800000, .f32⟩ : BufTy).Contents (Elt Ideal)) :
    Cert.ReferenceIdeal.Read.val_main_v12 (F := Ideal) X rows cols vals
      = Cert.KernelIdeal.Stretch.spmm (F := Ideal) rows cols vals X := rfl

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the two-layer convolution of the arguments: the kernel's program by its run read back
    through its four segments, the reference by its run read stage by stage; the arguments agree, and the sparse
    product is one function. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5⟩ := hagree c
  rw [Cert.ReferenceIdeal.Read.val_main_v39_eq, h0, h1, h2, h3, h4, h5, Cert.ReferenceIdeal.RefValue.layer2_eq,
    Cert.ReferenceIdeal.RefValue.product2_eq, Cert.ReferenceIdeal.RefValue.layer1_eq, spmm_eq, spmm_eq]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
